-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S2x8192x100 : S_.BroadcastsInDim S2x8192x100 (![] : Fin 0 → Fin S2x8192x100.rank)
  reducesTo_S2x8192x100_S_d0_1_2 : S2x8192x100.ReducesTo [0, 1, 2] S_

variable [Facts]

def fn_part1 {F : FTy → Type} [FloatOps F] (main_v13 : IVec S_ 1) (main_v16 : IVec S2x8192x100 1) : IVec S_ 1 :=
  let main_c_5 : IVec S_ 1 := constantI S_ 1 1#1
  let main_v17 : IVec S_ 1 := (fun x v => Host.reduce IntOp.andi x v reducesTo_S2x8192x100_S_d0_1_2 h_S_) main_v16 main_c_5
  let main_v18 : IVec S_ 1 := andi main_v13 main_v17
  main_v18

def fn {F : FTy → Type} [FloatOps F] (main_arg0 : FVec F S512x256 .f32) (main_arg1 : FVec F S8192x2048 .f32) (main_arg2 : FVec F S8192x8192 .f32) (main_arg3 : FVec F S2x8192x100 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S2x8192x100 .f32 := Host.absf main_arg3
  let main_cst_4 : FVec F S_ .f32 := constant S_ .f32 0x7F800000#32
  let main_v15 : FVec F S2x8192x100 .f32 := broadcastInDim S2x8192x100 ![] bcast_S_S2x8192x100 main_cst_4
  let main_v16 : IVec S2x8192x100 1 := cmpf .olt main_v14 main_v15
  fn_part1 (F := F) main_v13 main_v16
-- ==== Kernel.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩
abbrev S512x256x1 : Shape := ⟨3, ![512, 256, 1]⟩
abbrev S8 : Shape := ⟨1, ![8]⟩
abbrev S1x1x8 : Shape := ⟨3, ![1, 1, 8]⟩
abbrev S512x256x8 : Shape := ⟨3, ![512, 256, 8]⟩
abbrev S512x2048 : Shape := ⟨2, ![512, 2048]⟩
abbrev S512x8192 : Shape := ⟨2, ![512, 8192]⟩
abbrev S512x512 : Shape := ⟨2, ![512, 512]⟩
abbrev S2048x512 : Shape := ⟨2, ![2048, 512]⟩
abbrev S256x8192 : Shape := ⟨2, ![256, 8192]⟩
abbrev S8192x256 : Shape := ⟨2, ![8192, 256]⟩
abbrev S512x100 : Shape := ⟨2, ![512, 100]⟩
abbrev S1x8192x100 : Shape := ⟨3, ![1, 8192, 100]⟩
abbrev S8192x100 : Shape := ⟨2, ![8192, 100]⟩

abbrev nBuf : Space → Nat
  | .hbm => 41
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S8192x2048, .f32⟩
  | .hbm, ⟨2, _⟩ => ⟨S8192x8192, .f32⟩
  | .hbm, ⟨3, _⟩ => ⟨S2x8192x100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .i32⟩
  | .hbm, ⟨23, _⟩ => ⟨S_, .i32⟩
  | .hbm, ⟨24, _⟩ => ⟨S512x256, .i32⟩
  | .hbm, ⟨25, _⟩ => ⟨S512x256, .i32⟩
  | .hbm, ⟨26, _⟩ => ⟨S512x256, .i32⟩
  | .hbm, ⟨27, _⟩ => ⟨S512x256x1, .i32⟩
  | .hbm, ⟨28, _⟩ => ⟨S8, .i32⟩
  | .hbm, ⟨29, _⟩ => ⟨S1x1x8, .i32⟩
  | .hbm, ⟨30, _⟩ => ⟨S512x256x8, .i32⟩
  | .hbm, ⟨31, _⟩ => ⟨S512x256x8, .i32⟩
  | .hbm, ⟨32, _⟩ => ⟨S512x256x8, .i32⟩
  | .hbm, ⟨33, _⟩ => ⟨S_, .i32⟩
  | .hbm, ⟨34, _⟩ => ⟨S512x256x8, .i32⟩
  | .hbm, ⟨35, _⟩ => ⟨S512x256x8, .i32⟩
  | .hbm, ⟨36, _⟩ => ⟨S512x256x8, .f32⟩
  | .hbm, ⟨37, _⟩ => ⟨S512x2048, .f32⟩
  | .hbm, ⟨38, _⟩ => ⟨S512x8192, .bf16⟩
  | .hbm, ⟨39, _⟩ => ⟨S512x8192, .bf16⟩
  | .hbm, ⟨40, _⟩ => ⟨S512x100, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x512, .bf16⟩
  | .local _ .vmem, ⟨4, _⟩ => ⟨S512x512, .bf16⟩
  | .local _ .vmem, ⟨5, _⟩ => ⟨S512x8192, .bf16⟩
  | .local _ .vmem, ⟨6, _⟩ => ⟨S256x8192, .f32⟩
  | .local _ .vmem, ⟨7, _⟩ => ⟨S256x8192, .f32⟩
  | .local _ .vmem, ⟨8, _⟩ => ⟨S512x256, .bf16⟩
  | .local _ .vmem, ⟨9, _⟩ => ⟨S512x256, .bf16⟩
  | .local _ .vmem, ⟨10, _⟩ => ⟨S512x8192, .bf16⟩
  | .local _ .vmem, ⟨11, _⟩ => ⟨S512x8192, .bf16⟩
  | .local _ .vmem, ⟨12, _⟩ => ⟨S2x8192x100, .f32⟩
  | .local _ .vmem, ⟨13, _⟩ => ⟨S512x100, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x8192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x8192x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  natLt_1_32 : 1 < 32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S256x8192_S256x8192_0_0 : ∀ a, (![0, 0] : Fin 2 → Nat) a + S256x8192.size a ≤ S256x8192.size a
  h_S256x8192 : 0 < S256x8192.numel
  transposes_S256x8192_p1_0_S8192x256 : S256x8192.Transposes [1, 0] S8192x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S2x8192x100_S2x8192x100_0_0_0 : ∀ a, (![0, 0, 0] : Fin 3 → Nat) a + S2x8192x100.size a ≤ S2x8192x100.size a
  h_S2x8192x100 : 0 < S2x8192x100.numel
  slices_S2x8192x100_o0_0_0_S1x8192x100 : S2x8192x100.Slices ![0, 0, 0] S1x8192x100
  shapeCasts_S1x8192x100_S8192x100 : S1x8192x100.ShapeCasts S8192x100
  slices_S2x8192x100_o1_0_0_S1x8192x100 : S2x8192x100.Slices ![1, 0, 0] S1x8192x100
  inb_S512x100_S512x100_0_0 : ∀ a, (![0, 0] : Fin 2 → Nat) a + S512x100.size a ≤ S512x100.size a
  h_S512x100 : 0 < S512x100.numel
  dot_S512x2048_S2048x512_S512x512_1_0_0_1_n_n_wf : DotDims.WF S512x2048 S2048x512 S512x512 [1] [0] [0] [1] [] []
  dot_S512x8192_S8192x256_S512x256_1_0_0_1_n_n_wf : DotDims.WF S512x8192 S8192x256 S512x256 [1] [0] [0] [1] [] []
  dot_S512x8192_S8192x100_S512x100_1_0_0_1_n_n_wf : DotDims.WF S512x8192 S8192x100 S512x100 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x8192.size a
  hwx0_2 : ∀ i : grid0.Coords, EltTy.bits .bf16 = 32 ∨ (Rect.block (s := S512x8192) S512x512.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S512x8192.size a
  hwx1_0 : ∀ i : grid1.Coords, EltTy.bits .bf16 = 32 ∨ (Rect.block (s := S512x8192) S512x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x8192.size a
  hwx1_2 : ∀ i : grid1.Coords, EltTy.bits .bf16 = 32 ∨ (Rect.block (s := S512x8192) S512x256.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S512x8192.size a
  hwx2_0 : ∀ i : grid2.Coords, EltTy.bits .bf16 = 32 ∨ (Rect.block (s := S512x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x8192.size a ≤ S512x8192.size a
  hwx2_1 : ∀ i : grid2.Coords, EltTy.bits .bf16 = 32 ∨ (Rect.block (s := S512x8192) S512x8192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x8192x100.size a ≤ S2x8192x100.size a
  hwx2_2 : ∀ i : grid2.Coords, EltTy.bits .f32 = 32 ∨ (Rect.block (s := S2x8192x100) S2x8192x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x100.size a ≤ S512x100.size a
  hwx2_3 : ∀ i : grid2.Coords, EltTy.bits .f32 = 32 ∨ (Rect.block (s := S512x100) S512x100.size (cc2_transform_3 i) (hinb2_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x8192_S8192x100_S512x100_1_0_0_1_n_n : DotDims S512x8192 S8192x100 S512x100 where
  lhsContracting := [1]
  rhsContracting := [0]
  lhsNonContracting := [0]
  rhsNonContracting := [1]
  lhsBatch := []
  rhsBatch := []
  wf := dot_S512x8192_S8192x100_S512x100_1_0_0_1_n_n_wf

abbrev win0_0 : Pipeline.Window sig grid0 :=
  Pipeline.Window.ofSpec (Memref.whole main_v21) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S512x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S512x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v23) S512x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S2x8192x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S512x100.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩
abbrev S512x256x1 : Shape := ⟨3, ![512, 256, 1]⟩
abbrev S8 : Shape := ⟨1, ![8]⟩
abbrev S1x1x8 : Shape := ⟨3, ![1, 1, 8]⟩
abbrev S512x256x8 : Shape := ⟨3, ![512, 256, 8]⟩
abbrev S512x2048 : Shape := ⟨2, ![512, 2048]⟩
abbrev S2048x8192 : Shape := ⟨2, ![2048, 8192]⟩
abbrev S512x8192 : Shape := ⟨2, ![512, 8192]⟩
abbrev S1x8192x100 : Shape := ⟨3, ![1, 8192, 100]⟩
abbrev S8192x100 : Shape := ⟨2, ![8192, 100]⟩
abbrev S512x100 : Shape := ⟨2, ![512, 100]⟩

abbrev nBuf : Space → Nat
  | .hbm => 57
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S8192x2048, .f32⟩
  | .hbm, ⟨2, _⟩ => ⟨S8192x8192, .f32⟩
  | .hbm, ⟨3, _⟩ => ⟨S2x8192x100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .i32⟩
  | .hbm, ⟨23, _⟩ => ⟨S_, .i32⟩
  | .hbm, ⟨24, _⟩ => ⟨S512x256, .i32⟩
  | .hbm, ⟨25, _⟩ => ⟨S512x256, .i32⟩
  | .hbm, ⟨26, _⟩ => ⟨S512x256, .i32⟩
  | .hbm, ⟨27, _⟩ => ⟨S512x256x1, .i32⟩
  | .hbm, ⟨28, _⟩ => ⟨S8, .i32⟩
  | .hbm, ⟨29, _⟩ => ⟨S1x1x8, .i32⟩
  | .hbm, ⟨30, _⟩ => ⟨S512x256x8, .i32⟩
  | .hbm, ⟨31, _⟩ => ⟨S512x256x8, .i32⟩
  | .hbm, ⟨32, _⟩ => ⟨S512x256x8, .i32⟩
  | .hbm, ⟨33, _⟩ => ⟨S_, .i32⟩
  | .hbm, ⟨34, _⟩ => ⟨S512x256x8, .i32⟩
  | .hbm, ⟨35, _⟩ => ⟨S512x256x8, .i32⟩
  | .hbm, ⟨36, _⟩ => ⟨S512x256x8, .f32⟩
  | .hbm, ⟨37, _⟩ => ⟨S512x2048, .f32⟩
  | .hbm, ⟨38, _⟩ => ⟨S2048x8192, .f32⟩
  | .hbm, ⟨39, _⟩ => ⟨S512x8192, .f32⟩
  | .hbm, ⟨40, _⟩ => ⟨S_, .f32⟩
  | .hbm, ⟨41, _⟩ => ⟨S512x8192, .f32⟩
  | .hbm, ⟨42, _⟩ => ⟨S512x8192, .i1⟩
  | .hbm, ⟨43, _⟩ => ⟨S512x8192, .f32⟩
  | .hbm, ⟨44, _⟩ => ⟨S8192x8192, .f32⟩
  | .hbm, ⟨45, _⟩ => ⟨S512x8192, .f32⟩
  | .hbm, ⟨46, _⟩ => ⟨S_, .f32⟩
  | .hbm, ⟨47, _⟩ => ⟨S512x8192, .f32⟩
  | .hbm, ⟨48, _⟩ => ⟨S512x8192, .i1⟩
  | .hbm, ⟨49, _⟩ => ⟨S512x8192, .f32⟩
  | .hbm, ⟨50, _⟩ => ⟨S1x8192x100, .f32⟩
  | .hbm, ⟨51, _⟩ => ⟨S8192x100, .f32⟩
  | .hbm, ⟨52, _⟩ => ⟨S512x100, .f32⟩
  | .hbm, ⟨53, _⟩ => ⟨S1x8192x100, .f32⟩
  | .hbm, ⟨54, _⟩ => ⟨S8192x100, .f32⟩
  | .hbm, ⟨55, _⟩ => ⟨S512x100, .f32⟩
  | .hbm, ⟨56, _⟩ => ⟨S512x100, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  transposes_S8192x2048_S2048x8192_1_0 : S8192x2048.Transposes [1, 0] S2048x8192
  bcast_S_S512x8192 : S_.BroadcastsInDim S512x8192 (![] : Fin 0 → Fin S512x8192.rank)
  transposes_S8192x8192_S8192x8192_1_0 : S8192x8192.Transposes [1, 0] S8192x8192
  slices_S2x8192x100_S1x8192x100_0_0_0 : S2x8192x100.Slices ![0, 0, 0] S1x8192x100
  shapeCasts_S1x8192x100_S8192x100 : S1x8192x100.ShapeCasts S8192x100
  slices_S2x8192x100_S1x8192x100_1_0_0 : S2x8192x100.Slices ![1, 0, 0] S1x8192x100
  dot_S512x2048_S2048x8192_S512x8192_1_0_0_1_n_n_wf : DotDims.WF S512x2048 S2048x8192 S512x8192 [1] [0] [0] [1] [] []
  dot_S512x8192_S8192x8192_S512x8192_1_0_0_1_n_n_wf : DotDims.WF S512x8192 S8192x8192 S512x8192 [1] [0] [0] [1] [] []
  dot_S512x8192_S8192x100_S512x100_1_0_0_1_n_n_wf : DotDims.WF S512x8192 S8192x100 S512x100 [1] [0] [0] [1] [] []

variable [Facts₀]

def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S512x8192_S8192x8192_S512x8192_1_0_0_1_n_n : DotDims S512x8192 S8192x8192 S512x8192 where
  lhsContracting := [1]
  rhsContracting := [0]
  lhsNonContracting := [0]
  rhsNonContracting := [1]
  lhsBatch := []
  rhsBatch := []
  wf := dot_S512x8192_S8192x8192_S512x8192_1_0_0_1_n_n_wf
def dot_S512x8192_S8192x100_S512x100_1_0_0_1_n_n : DotDims S512x8192 S8192x100 S512x100 where
  lhsContracting := [1]
  rhsContracting := [0]
  lhsNonContracting := [0]
  rhsNonContracting := [1]
  lhsBatch := []
  rhsBatch := []
  wf := dot_S512x8192_S8192x100_S512x100_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Net.lean ====
/-
  A network of threshold units over the extended reals, for any extents.
  A threshold unit sums its inputs against one row of a weight array and answers 1 when the sum reaches 5 and 0
  when it does not. A layer of N such units maps an [M, K] array x and an [N, K] weight array w to the [M, N] array
  whose entry (r, c) is the answer of unit c on row r of x:  fire (sum over k of x (r, k) * w (c, k)).
  A read-out adds two plain products: entry (r, c) is
    sum over k of a (r, k) * wo (0, k, c)  +  sum over k of b (r, k) * wo (1, k, c)
  for two [M, K] arrays a, b and a stacked [2, K, C] weight wo.
  Each of these is computed in two ways, and both are the same function on the extended reals:
    * on blocks, by a block product into the zero accumulator (the operands narrowed to a shorter float format, which
      changes nothing on the extended reals; the weight transposed, or a plane cut out of the stack), the comparison
      against 5, and the comparison bit widened to a 32-bit integer and read as a signed number;
    * on whole arrays, by the host's product against the transposed weight (or a plane of the stack), the same
      comparison, and the comparison bit read as an unsigned number.
  A bit widened with zeros and read signed is the bit read unsigned: 0 or 1 either way.
-/
import Idealize.ShloMosaic.PureOps.Ideal.Laws
import Idealize.ShloMosaic.Lib.ValueIdx
import Idealize.ShloMosaic.Lib.ValueLayout
import Idealize.ShloMosaic.Lib.Pipeline.Value
import proofs.«125684_j83605833384667_1_alg».proof.Proof.LibDotSum

noncomputable section

namespace Cert.Net

open Idealize.ShloMosaic Idealize.ShloMosaic.ValueIdx

/-- The answer of a threshold unit whose inputs sum to `s`: 1 when `s` reaches 5 (the f32 word 0x40A00000), else 0. -/
def fire (s : EReal) : EReal :=
  (((FloatOps.cmpf (F := Ideal) (φ := .f32) .oge s (Ideal.ofBits .f32 0x40A00000#32)).toNat : ℝ) : EReal)

/-- One bit widened with zeros to 32 bits and read as a signed integer is the bit read as a natural number. -/
theorem toInt_setWidth_bit : ∀ b : BitVec 1, (b.setWidth 32).toInt = (b.toNat : ℤ) := by decide

/-- So the signed reading of the widened bit and the unsigned reading of the bit are one extended real. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit b, Int.cast_natCast]

variable {M K N C : Nat}

/-- A layer of threshold units: entry (r, c) is the answer of unit c (row c of `w`) on row r of `x`. -/
def layer (x : (⟨2, ![M, K]⟩ : Shape).Idx → EReal) (w : (⟨2, ![N, K]⟩ : Shape).Idx → EReal) :
    (⟨2, ![M, N]⟩ : Shape).Idx → EReal :=
  fun i => fire (∑ k : Fin K, x (ix2 (i 0) k) * w (ix2 (i 1) k))

theorem layer_apply (x : (⟨2, ![M, K]⟩ : Shape).Idx → EReal) (w : (⟨2, ![N, K]⟩ : Shape).Idx → EReal) (r : Fin M) (c : Fin N) :
    layer x w (ix2 r c) = fire (∑ k : Fin K, x (ix2 r k) * w (ix2 c k)) := rfl

/-- The read-out: entry (r, c) adds the product of `a` with plane 0 of the stacked weight and that of `b` with plane 1. -/
def readout (a b : (⟨2, ![M, K]⟩ : Shape).Idx → EReal) (wo : (⟨3, ![2, K, C]⟩ : Shape).Idx → EReal) :
    (⟨2, ![M, C]⟩ : Shape).Idx → EReal :=
  fun i => (∑ k : Fin K, a (ix2 (i 0) k) * wo (ix3 (0 : Fin 2) k (i 1)))
    + ∑ k : Fin K, b (ix2 (i 0) k) * wo (ix3 (1 : Fin 2) k (i 1))

theorem readout_apply (a b : (⟨2, ![M, K]⟩ : Shape).Idx → EReal) (wo : (⟨3, ![2, K, C]⟩ : Shape).Idx → EReal)
    (r : Fin M) (c : Fin C) :
    readout a b wo (ix2 r c) = (∑ k : Fin K, a (ix2 r k) * wo (ix3 (0 : Fin 2) k c))
      + ∑ k : Fin K, b (ix2 r k) * wo (ix3 (1 : Fin 2) k c) := rfl

/-- A layer's entry (r, c) depends on row r of the input and row c of the weight only: two inputs that agree on
    those rows, of whatever extents, give the same answer. -/
theorem layer_congr {M' N' : Nat} (x : (⟨2, ![M, K]⟩ : Shape).Idx → EReal) (x' : (⟨2, ![M', K]⟩ : Shape).Idx → EReal)
    (w : (⟨2, ![N, K]⟩ : Shape).Idx → EReal) (w' : (⟨2, ![N', K]⟩ : Shape).Idx → EReal)
    (r : Fin M) (r' : Fin M') (c : Fin N) (c' : Fin N')
    (hx : ∀ k : Fin K, x (ix2 r k) = x' (ix2 r' k)) (hw : ∀ k : Fin K, w (ix2 c k) = w' (ix2 c' k)) :
    layer x w (ix2 r c) = layer x' w' (ix2 r' c') := by
  rw [layer_apply, layer_apply]
  exact congrArg fire (Finset.sum_congr rfl fun k _ => by rw [hx k, hw k])

/-! ## On blocks -/

/-- The block form of a layer: a block product into the zero accumulator of a left operand that reads `x` and a right
    operand that reads `w` transposed, compared against 5, the bit widened, read signed and narrowed. -/
theorem layer_of_matmul {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![M, K]⟩ φ₁) (W : FVec Ideal ⟨2, ![K, N]⟩ φ₂)
    (x : (⟨2, ![M, K]⟩ : Shape).Idx → EReal) (w : (⟨2, ![N, K]⟩ : Shape).Idx → EReal)
    (hX : ∀ (r : Fin M) (k : Fin K), X (ix2 r k) = x (ix2 r k))
    (hW : ∀ (k : Fin K) (c : Fin N), W (ix2 k c) = w (ix2 c k))
    (hlt : 1 < 32) (hb : FTy.bf16.bits < FTy.f32.bits) :
    (truncf .bf16 (sitofp .f32 (extui 32 (cmpf .oge (matmul d none X W (constant ⟨2, ![M, N]⟩ .f32 0x00000000#32))
        (broadcast ⟨2, ![M, N]⟩ (Scalar.ofBits .f32 0x40A00000#32))) hlt)) hb : FVec Ideal ⟨2, ![M, N]⟩ .bf16)
      = layer x w := by
  funext i
  obtain ⟨r, c, rfl⟩ : ∃ (r : Fin M) (c : Fin N), i = ix2 r c := ⟨i 0, i 1, eq_ix2 i⟩
  show FloatOps.sitofp (F := Ideal) .f32 ((FloatOps.cmpf (F := Ideal) .oge
      (matmul d none X W (constant ⟨2, ![M, N]⟩ .f32 0x00000000#32) (ix2 r c)) (Ideal.ofBits .f32 0x40A00000#32)).setWidth 32) = _
  rw [sitofp_setWidth_bit, Cert.Lib.matmul_rc_apply d hlc hrc hln hrn hlb hrb, layer_apply]
  exact congrArg fire (Finset.sum_congr rfl fun k _ => by rw [hX r k, hW k c])

/-- A layer on a block whose input arrives in f32: both operands narrowed, the weight block transposed. -/
theorem layer_block_f32 (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (w : FVec Ideal ⟨2, ![N, K]⟩ .f32)
    (hs : (⟨2, ![M, K]⟩ : Shape).ShapeCasts ⟨2, ![M, K]⟩)
    (ht : (⟨2, ![N, K]⟩ : Shape).Transposes [1, 0] ⟨2, ![K, N]⟩)
    (hlt : 1 < 32) (hb hb' hb'' : FTy.bf16.bits < FTy.f32.bits) :
    (truncf .bf16 (sitofp .f32 (extui 32 (cmpf .oge
        (matmul d none (truncf .bf16 (shapeCast ⟨2, ![M, K]⟩ x hs) hb) (transpose ⟨2, ![K, N]⟩ [1, 0] (truncf .bf16 w hb') ht)
          (constant ⟨2, ![M, N]⟩ .f32 0x00000000#32))
        (broadcast ⟨2, ![M, N]⟩ (Scalar.ofBits .f32 0x40A00000#32))) hlt)) hb'' : FVec Ideal ⟨2, ![M, N]⟩ .bf16)
      = layer x w :=
  layer_of_matmul d hlc hrc hln hrn hlb hrb _ _ x w
    (fun r k => by rw [shapeCast_self]; rfl)
    (fun k c => by rw [transpose_ix2_apply]; rfl) hlt hb''

/-- A layer on a block whose input arrives already narrowed: the weight block narrowed and transposed. -/
theorem layer_block_bf16 (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .bf16) (w : FVec Ideal ⟨2, ![N, K]⟩ .f32)
    (hs : (⟨2, ![M, K]⟩ : Shape).ShapeCasts ⟨2, ![M, K]⟩)
    (ht : (⟨2, ![N, K]⟩ : Shape).Transposes [1, 0] ⟨2, ![K, N]⟩)
    (hlt : 1 < 32) (hb' hb'' : FTy.bf16.bits < FTy.f32.bits) :
    (truncf .bf16 (sitofp .f32 (extui 32 (cmpf .oge
        (matmul d none (shapeCast ⟨2, ![M, K]⟩ x hs) (transpose ⟨2, ![K, N]⟩ [1, 0] (truncf .bf16 w hb') ht)
          (constant ⟨2, ![M, N]⟩ .f32 0x00000000#32))
        (broadcast ⟨2, ![M, N]⟩ (Scalar.ofBits .f32 0x40A00000#32))) hlt)) hb'' : FVec Ideal ⟨2, ![M, N]⟩ .bf16)
      = layer x w :=
  layer_of_matmul d hlc hrc hln hrn hlb hrb _ _ x w
    (fun r k => by rw [shapeCast_self])
    (fun k c => by rw [transpose_ix2_apply]; rfl) hlt hb''

/-- Plane `o` of a stack of matrices, cut out as a one-plane stack, reads the stack at plane `o`. -/
theorem slice_plane_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (j : Fin n1) (e : Fin n2) (p : Fin n0) (hp : p.val = o) :
    extractStridedSlice ⟨3, ![1, n1, n2]⟩ ![o, 0, 0] X h (ix3 u j e) = X (ix3 p j e) :=
  extractStridedSlice_apply _ _ _ _ _ (fun ax => by
    match ax with
    | ⟨0, _⟩ =>
      show p.val = o + u.val
      have := u.isLt
      omega
    | ⟨1, _⟩ => exact (Nat.zero_add _).symm
    | ⟨2, _⟩ => exact (Nat.zero_add _).symm)

/-- The read-out on blocks: two block products into zero accumulators, each against a plane cut out of the
    narrowed stack, added. -/
theorem readout_block (d : DotDims ⟨2, ![M, K]⟩ ⟨2, ![K, C]⟩ ⟨2, ![M, C]⟩)
    (hlc : d.lhsContracting = [1]) (hrc : d.rhsContracting = [0])
    (hln : d.lhsNonContracting = [0]) (hrn : d.rhsNonContracting = [1])
    (hlb : d.lhsBatch = []) (hrb : d.rhsBatch = [])
    (a b : FVec Ideal ⟨2, ![M, K]⟩ .bf16) (wo : FVec Ideal ⟨3, ![2, K, C]⟩ .f32)
    (hs : (⟨2, ![M, K]⟩ : Shape).ShapeCasts ⟨2, ![M, K]⟩) (hb : FTy.bf16.bits < FTy.f32.bits)
    (h0 : (⟨3, ![2, K, C]⟩ : Shape).Slices ![0, 0, 0] ⟨3, ![1, K, C]⟩)
    (h1 : (⟨3, ![2, K, C]⟩ : Shape).Slices ![1, 0, 0] ⟨3, ![1, K, C]⟩)
    (hc : (⟨3, ![1, K, C]⟩ : Shape).ShapeCasts ⟨2, ![K, C]⟩) :
    addf
      (matmul d none (shapeCast ⟨2, ![M, K]⟩ a hs)
        (shapeCast ⟨2, ![K, C]⟩ (extractStridedSlice ⟨3, ![1, K, C]⟩ ![0, 0, 0] (truncf .bf16 wo hb) h0) hc)
        (constant ⟨2, ![M, C]⟩ .f32 0x00000000#32))
      (matmul d none (shapeCast ⟨2, ![M, K]⟩ b hs)
        (shapeCast ⟨2, ![K, C]⟩ (extractStridedSlice ⟨3, ![1, K, C]⟩ ![1, 0, 0] (truncf .bf16 wo hb) h1) hc)
        (constant ⟨2, ![M, C]⟩ .f32 0x00000000#32))
      = readout a b wo := by
  funext i
  obtain ⟨r, c, rfl⟩ : ∃ (r : Fin M) (c : Fin C), i = ix2 r c := ⟨i 0, i 1, eq_ix2 i⟩
  rw [addf_apply, Cert.Lib.matmul_rc_apply d hlc hrc hln hrn hlb hrb, Cert.Lib.matmul_rc_apply d hlc hrc hln hrn hlb hrb,
    readout_apply, shapeCast_self, shapeCast_self]
  refine congrArg₂ (· + ·) (Finset.sum_congr rfl fun k _ => ?_) (Finset.sum_congr rfl fun k _ => ?_)
  · rw [shapeCast_1ab_ab_apply, slice_plane_apply 0 _ h0 (0 : Fin 1) k c (0 : Fin 2) rfl]; rfl
  · rw [shapeCast_1ab_ab_apply, slice_plane_apply 1 _ h1 (0 : Fin 1) k c (1 : Fin 2) rfl]; rfl

/-! ## On whole arrays -/

/-- The host's form of a layer: the product against the transposed weight, compared against 5 laid over the array,
    the bit read unsigned. -/
theorem layer_host (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (w : FVec Ideal ⟨2, ![N, K]⟩ .f32)
    (ht : (⟨2, ![N, K]⟩ : Shape).Transposes [1, 0] ⟨2, ![K, N]⟩)
    (hbc : (⟨0, ![]⟩ : Shape).BroadcastsInDim ⟨2, ![M, N]⟩ ![]) :
    (uitofp .f32 (cmpf .oge (Host.dotGeneral d none x (transpose ⟨2, ![K, N]⟩ [1, 0] w ht))
        (broadcastInDim ⟨2, ![M, N]⟩ ![] hbc (constant ⟨0, ![]⟩ .f32 0x40A00000#32))) : FVec Ideal ⟨2, ![M, N]⟩ .f32)
      = layer x w := by
  funext i
  obtain ⟨r, c, rfl⟩ : ∃ (r : Fin M) (c : Fin N), i = ix2 r c := ⟨i 0, i 1, eq_ix2 i⟩
  show FloatOps.uitofp (F := Ideal) .f32 (FloatOps.cmpf (F := Ideal) .oge
      (Host.dotGeneral d none x (transpose ⟨2, ![K, N]⟩ [1, 0] w ht) (ix2 r c)) (Ideal.ofBits .f32 0x40A00000#32)) = _
  rw [Cert.Lib.dotGeneral_rc_apply d hlc hrc hln hrn hlb hrb, layer_apply]
  exact congrArg fire (Finset.sum_congr rfl fun k _ => by rw [transpose_ix2_apply])

/-- The host's form of the read-out: two products, each against a plane sliced out of the stack and cast to a
    matrix, added. -/
theorem readout_host (d : DotDims ⟨2, ![M, K]⟩ ⟨2, ![K, C]⟩ ⟨2, ![M, C]⟩)
    (hlc : d.lhsContracting = [1]) (hrc : d.rhsContracting = [0])
    (hln : d.lhsNonContracting = [0]) (hrn : d.rhsNonContracting = [1])
    (hlb : d.lhsBatch = []) (hrb : d.rhsBatch = [])
    (a b : FVec Ideal ⟨2, ![M, K]⟩ .f32) (wo : FVec Ideal ⟨3, ![2, K, C]⟩ .f32)
    (h0 : (⟨3, ![2, K, C]⟩ : Shape).Slices ![0, 0, 0] ⟨3, ![1, K, C]⟩)
    (h1 : (⟨3, ![2, K, C]⟩ : Shape).Slices ![1, 0, 0] ⟨3, ![1, K, C]⟩)
    (hc : (⟨3, ![1, K, C]⟩ : Shape).ShapeCasts ⟨2, ![K, C]⟩) :
    addf
      (Host.dotGeneral d none a (shapeCast ⟨2, ![K, C]⟩ (extractStridedSlice ⟨3, ![1, K, C]⟩ ![0, 0, 0] wo h0) hc))
      (Host.dotGeneral d none b (shapeCast ⟨2, ![K, C]⟩ (extractStridedSlice ⟨3, ![1, K, C]⟩ ![1, 0, 0] wo h1) hc))
      = readout a b wo := by
  funext i
  obtain ⟨r, c, rfl⟩ : ∃ (r : Fin M) (c : Fin C), i = ix2 r c := ⟨i 0, i 1, eq_ix2 i⟩
  rw [addf_apply, Cert.Lib.dotGeneral_rc_apply d hlc hrc hln hrn hlb hrb, Cert.Lib.dotGeneral_rc_apply d hlc hrc hln hrn hlb hrb,
    readout_apply]
  refine congrArg₂ (· + ·) (Finset.sum_congr rfl fun k _ => ?_) (Finset.sum_congr rfl fun k _ => ?_)
  · rw [shapeCast_1ab_ab_apply, slice_plane_apply 0 _ h0 (0 : Fin 1) k c (0 : Fin 2) rfl]
  · rw [shapeCast_1ab_ab_apply, slice_plane_apply 1 _ h1 (0 : Fin 1) k c (1 : Fin 2) rfl]

/-! ## The whole network -/

/-- The first layer on the encoded input, the second layer on the first's answers, and the read-out of both. -/
def net {E H : Nat} (e : (⟨2, ![M, E]⟩ : Shape).Idx → EReal) (w0 : (⟨2, ![H, E]⟩ : Shape).Idx → EReal)
    (w1 : (⟨2, ![H, H]⟩ : Shape).Idx → EReal) (wo : (⟨3, ![2, H, C]⟩ : Shape).Idx → EReal) :
    (⟨2, ![M, C]⟩ : Shape).Idx → EReal :=
  readout (layer e w0) (layer (layer e w0) w1) wo

end Cert.Net

end
-- ==== Proof.Layer0.lean ====
/-
  The first layer's array after its region. The region walks 16 points; point t takes the whole [512, 2048] input and
  rows 512·t … 512·t + 511 of the [8192, 2048] weight, and writes columns 512·t … 512·t + 511 of the [512, 8192]
  output. Entry (r, q) of what point t writes is the answer of the threshold unit with weight row 512·t + q on input
  row r, which is entry (r, 512·t + q) of the whole layer: a unit's answer depends on its own weight row and its own
  input row only. The 16 column blocks tile the output, so the array ends holding the layer of the region-entry arrays.
-/
import proofs.«125684_j83605833384667_1_alg».proof.Proof.Gen.KernelIdeal.Frame
import proofs.«125684_j83605833384667_1_alg».proof.Proof.Net
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of its two loaded blocks. -/
theorem stored_eq (x0 : Vec Ideal S512x2048 .f32) (x1 : Vec Ideal S512x2048 .f32) :
    k0_pay1 (F := Ideal) x0 x1 = Net.layer (M := 512) (K := 2048) (N := 512) x0 x1 := by
  unfold k0_pay1
  exact Net.layer_block_f32 dot_S512x2048_S2048x512_S512x512_1_0_0_1_n_n rfl rfl rfl rfl rfl rfl x0 x1 _ _ _ _ _ _

/-- The printed index maps over the grid: the input is block (0, 0) at every point, the weight block moves down its
    rows as the output block moves along its columns. -/
theorem index_facts : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) < 16 :=
  (by decide +kernel : ∀ t : Fin grid0.N, _)

/-- Every column block is some point's. -/
theorem index_onto : ∀ q : Fin 16, ∃ t : Fin cfg0.N, win0_2.index t = ![0, q.val] :=
  (by decide +kernel : ∀ q : Fin 16, ∃ t : Fin grid0.N, win0_2.index t = ![0, q.val])

/-- What point t writes back is block t of the whole layer of the region-entry arrays. -/
theorem flushed_eq (c : Dev nD) (t : Fin cfg0.N) :
    (dat0 V c).flushed 2 t = ((cfg0.win 2).blk t).view.read (Elt Ideal)
      (Net.layer (M := 512) (K := 2048) (N := 8192) (V c main_v21) (V c main_arg1)) := by
  show (cfg0.win 2).cut (grid0.coords t) ((dat0 V c).after 2 t) = _
  rw [after0_2]
  unfold out0_2
  rw [View.canon_unit_zero origin]
  simp only [View.ld_unit_zero (S := S512x2048) origin]
  rw [stored_eq]
  obtain ⟨e00, e01, e10, e11, e20, e21⟩ := index_facts t
  funext j
  show Net.layer (M := 512) (K := 2048) (N := 512) (iblk0 V c 0 t) (iblk0 V c 1 t) j
    = Net.layer (M := 512) (K := 2048) (N := 8192) (V c main_v21) (V c main_arg1) (((cfg0.win 2).blk t).view.emb j)
  refine ((congrArg _ (eq_ix2 j)).trans ?_).trans (congrArg _ (eq_ix2 (((cfg0.win 2).blk t).view.emb j))).symm
  refine Net.layer_congr _ _ _ _ _ _ _ _ (fun k => ?_) (fun k => ?_)
  · show V c main_v21 (((cfg0.win 0).blk t).view.emb (ix2 (j 0) k)) = V c main_v21 (ix2 ((((cfg0.win 2).blk t).view.emb j) 0) k)
    refine congrArg _ (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2048 + 1 * k.val = k.val
      omega
  · show V c main_arg1 (((cfg0.win 1).blk t).view.emb (ix2 (j 1) k)) = V c main_arg1 (ix2 ((((cfg0.win 2).blk t).view.emb j) 1) k)
    refine congrArg _ (funext fun a => Fin.ext ?_)
    match a with
    | ⟨0, _⟩ =>
      show win0_1.index t (0 : Fin 2) * 512 + 1 * (j 1).val = win0_2.index t (1 : Fin 2) * 512 + 1 * (j 1).val
      omega
    | ⟨1, _⟩ =>
      show win0_1.index t (1 : Fin 2) * 2048 + 1 * k.val = k.val
      omega

/-- An index of the output array is in point t's block iff each coordinate is in the block's range on its axis. -/
theorem mem_block (t : Fin cfg0.N) (i : S512x8192.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v22).slice (win0_2.rect t)).set ↔ _
  rw [View.set_slice_whole, Rect.mem_set_unit]
  exact Iff.rfl

/-- The 16 column blocks tile the output: column j lies in the block of the point with block index j / 512. -/
theorem covered (i : S512x8192.Idx) :
    ∃ t : Fin cfg0.N, (cfg0.win 2).flush t = true ∧ i ∈ ((cfg0.win 2).blk t).view.set := by
  have hi0 : (i 0).val < 512 := (i 0).isLt
  have hi1 : (i 1).val < 8192 := (i 1).isLt
  obtain ⟨t, ht⟩ := index_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- The output array after the region is the layer of the arrays the region found. -/
theorem final (c : Dev nD) :
    (dat0 V c).arrAt 2 cfg0.N = Net.layer (M := 512) (K := 2048) (N := 8192) (V c main_v21) (V c main_arg1) :=
  (dat0 V c).arrAt_eq_of_cover 2 _ (fun t _ => flushed_eq V c t) covered

end Cert.KernelIdeal.Layer0

end
-- ==== Proof.Layer1.lean ====
/-
  The second layer's array after its region. The region walks 32 points; point t takes the whole [512, 8192] array of
  first-layer answers and rows 256·t … 256·t + 255 of the [8192, 8192] weight, and writes columns 256·t … 256·t + 255
  of the [512, 8192] output. Entry (r, q) of what point t writes is the answer of the unit with weight row 256·t + q
  on row r of the first layer's answers, which is entry (r, 256·t + q) of the whole layer. The 32 column blocks tile
  the output, so the array ends holding the layer of the region-entry arrays.
-/
import proofs.«125684_j83605833384667_1_alg».proof.Proof.Gen.KernelIdeal.Frame
import proofs.«125684_j83605833384667_1_alg».proof.Proof.Net
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of its two loaded blocks. -/
theorem stored_eq (x0 : Vec Ideal S512x8192 .bf16) (x1 : Vec Ideal S256x8192 .f32) :
    k1_pay1 (F := Ideal) x0 x1 = Net.layer (M := 512) (K := 8192) (N := 256) x0 x1 := by
  unfold k1_pay1
  exact Net.layer_block_bf16 dot_S512x8192_S8192x256_S512x256_1_0_0_1_n_n rfl rfl rfl rfl rfl rfl x0 x1 _ _ _ _ _

/-- The printed index maps over the grid: the input is block (0, 0) at every point, the weight block moves down its
    rows as the output block moves along its columns. -/
theorem index_facts : ∀ t : Fin cfg1.N, win1_0.index t (0 : Fin 2) = 0 ∧ win1_0.index t (1 : Fin 2) = 0
    ∧ win1_1.index t (0 : Fin 2) = win1_2.index t (1 : Fin 2) ∧ win1_1.index t (1 : Fin 2) = 0
    ∧ win1_2.index t (0 : Fin 2) = 0 ∧ win1_2.index t (1 : Fin 2) < 32 :=
  (by decide +kernel : ∀ t : Fin grid1.N, _)

/-- Every column block is some point's. -/
theorem index_onto : ∀ q : Fin 32, ∃ t : Fin cfg1.N, win1_2.index t = ![0, q.val] :=
  (by decide +kernel : ∀ q : Fin 32, ∃ t : Fin grid1.N, win1_2.index t = ![0, q.val])

/-- What point t writes back is block t of the whole layer of the region-entry arrays. -/
theorem flushed_eq (c : Dev nD) (t : Fin cfg1.N) :
    (dat1 V c).flushed 2 t = ((cfg1.win 2).blk t).view.read (Elt Ideal)
      (Net.layer (M := 512) (K := 8192) (N := 8192) (V c main_v22) (V c main_arg2)) := by
  show (cfg1.win 2).cut (grid1.coords t) ((dat1 V c).after 2 t) = _
  rw [after1_2]
  unfold out1_2
  rw [View.canon_unit_zero origin]
  simp only [View.ld_unit_zero (S := S512x8192) origin, View.ld_unit_zero (S := S256x8192) origin]
  rw [stored_eq]
  obtain ⟨e00, e01, e10, e11, e20, e21⟩ := index_facts t
  funext j
  show Net.layer (M := 512) (K := 8192) (N := 256) (iblk1 V c 0 t) (iblk1 V c 1 t) j
    = Net.layer (M := 512) (K := 8192) (N := 8192) (V c main_v22) (V c main_arg2) (((cfg1.win 2).blk t).view.emb j)
  refine ((congrArg _ (eq_ix2 j)).trans ?_).trans (congrArg _ (eq_ix2 (((cfg1.win 2).blk t).view.emb j))).symm
  refine Net.layer_congr _ _ _ _ _ _ _ _ (fun k => ?_) (fun k => ?_)
  · show V c main_v22 (((cfg1.win 0).blk t).view.emb (ix2 (j 0) k)) = V c main_v22 (ix2 ((((cfg1.win 2).blk t).view.emb j) 0) k)
    refine congrArg _ (funext fun a => Fin.ext ?_)
    match a with
    | ⟨0, _⟩ =>
      show win1_0.index t (0 : Fin 2) * 512 + 1 * (j 0).val = win1_2.index t (0 : Fin 2) * 512 + 1 * (j 0).val
      omega
    | ⟨1, _⟩ =>
      show win1_0.index t (1 : Fin 2) * 8192 + 1 * k.val = k.val
      omega
  · show V c main_arg2 (((cfg1.win 1).blk t).view.emb (ix2 (j 1) k)) = V c main_arg2 (ix2 ((((cfg1.win 2).blk t).view.emb j) 1) k)
    refine congrArg _ (funext fun a => Fin.ext ?_)
    match a with
    | ⟨0, _⟩ =>
      show win1_1.index t (0 : Fin 2) * 256 + 1 * (j 1).val = win1_2.index t (1 : Fin 2) * 256 + 1 * (j 1).val
      omega
    | ⟨1, _⟩ =>
      show win1_1.index t (1 : Fin 2) * 8192 + 1 * k.val = k.val
      omega

/-- An index of the output array is in point t's block iff each coordinate is in the block's range on its axis. -/
theorem mem_block (t : Fin cfg1.N) (i : S512x8192.Idx) :
    i ∈ ((cfg1.win 2).blk t).view.set ↔ ∀ a : Fin 2, win1_2.index t a * S512x256.size a ≤ (i a).val
      ∧ (i a).val < win1_2.index t a * S512x256.size a + S512x256.size a := by
  show i ∈ ((View.whole main_v23).slice (win1_2.rect t)).set ↔ _
  rw [View.set_slice_whole, Rect.mem_set_unit]
  exact Iff.rfl

/-- The 32 column blocks tile the output: column j lies in the block of the point with block index j / 256. -/
theorem covered (i : S512x8192.Idx) :
    ∃ t : Fin cfg1.N, (cfg1.win 2).flush t = true ∧ i ∈ ((cfg1.win 2).blk t).view.set := by
  have hi0 : (i 0).val < 512 := (i 0).isLt
  have hi1 : (i 1).val < 8192 := (i 1).isLt
  obtain ⟨t, ht⟩ := index_onto ⟨(i 1).val / 256, by omega⟩
  have q0 : win1_2.index t (0 : Fin 2) = 0 := congrFun ht 0
  have q1 : win1_2.index t (1 : Fin 2) = (i 1).val / 256 := congrFun ht 1
  refine ⟨t, flush1_2 t, ?_⟩
  rw [mem_block]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 256 ≤ (i 1).val ∧ (i 1).val < win1_2.index t (1 : Fin 2) * 256 + 256
    omega

/-- The output array after the region is the layer of the arrays the region found. -/
theorem final (c : Dev nD) :
    (dat1 V c).arrAt 2 cfg1.N = Net.layer (M := 512) (K := 8192) (N := 8192) (V c main_v22) (V c main_arg2) :=
  (dat1 V c).arrAt_eq_of_cover 2 _ (fun t _ => flushed_eq V c t) covered

end Cert.KernelIdeal.Layer1

end
-- ==== Proof.Readout.lean ====
/-
  The read-out's array after its region. The region has one point; it takes the whole [512, 8192] arrays of both
  layers' answers and the whole stacked [2, 8192, 100] weight, and writes the whole [512, 100] result: the sum of the
  first layer's answers times plane 0 of the stack and the second layer's answers times plane 1. Every block is its
  whole array, so the result array ends holding the read-out of the region-entry arrays.
-/
import proofs.«125684_j83605833384667_1_alg».proof.Proof.Gen.KernelIdeal.Frame
import proofs.«125684_j83605833384667_1_alg».proof.Proof.Net
import Idealize.ShloMosaic.Lib.Pipeline.Value

set_option maxRecDepth 16384

noncomputable section

namespace Cert.KernelIdeal.Readout

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- The body's stored value is the read-out of its three loaded blocks. -/
theorem stored_eq (x0 x1 : Vec Ideal S512x8192 .bf16) (x2 : Vec Ideal S2x8192x100 .f32) :
    k2_pay1 (F := Ideal) x0 x1 x2 = Net.readout (M := 512) (K := 8192) (C := 100) x0 x1 x2 := by
  unfold k2_pay1
  exact Net.readout_block dot_S512x8192_S8192x100_S512x100_1_0_0_1_n_n rfl rfl rfl rfl rfl rfl x0 x1 x2 _ _ _ _ _

/-- The printed index maps over the grid: every window's block is block 0 on every axis. -/
theorem index_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0 :=
  (by decide +kernel : ∀ t : Fin grid2.N, _)

/-- What the one point writes back is the read-out of the region-entry arrays, read through the whole-array block. -/
theorem flushed_eq (c : Dev nD) (t : Fin cfg2.N) :
    (dat2 V c).flushed 3 t = ((cfg2.win 3).blk t).view.read (Elt Ideal)
      (Net.readout (M := 512) (K := 8192) (C := 100) (V c main_v22) (V c main_v23) (V c main_arg3)) := by
  show (cfg2.win 3).cut (grid2.coords t) ((dat2 V c).after 3 t) = _
  rw [after2_3]
  unfold out2_3
  rw [View.canon_unit_zero origin2]
  simp only [View.ld_unit_zero (S := S512x8192) origin2, View.ld_unit_zero (S := S2x8192x100) origin3]
  rw [stored_eq]
  obtain ⟨e00, e01, e10, e11, e20, e21, e22, e30, e31⟩ := index_facts t
  have h0 : (iblk2 V c 0 t : (⟨2, ![512, 8192]⟩ : Shape).Idx → EReal) = V c main_v22 := funext fun y => by
    show V c main_v22 (((cfg2.win 0).blk t).view.emb y) = V c main_v22 y
    refine congrArg _ (funext fun a => Fin.ext ?_)
    match a with
    | ⟨0, _⟩ => show win2_0.index t (0 : Fin 2) * 512 + 1 * (y 0).val = (y 0).val; omega
    | ⟨1, _⟩ => show win2_0.index t (1 : Fin 2) * 8192 + 1 * (y 1).val = (y 1).val; omega
  have h1 : (iblk2 V c 1 t : (⟨2, ![512, 8192]⟩ : Shape).Idx → EReal) = V c main_v23 := funext fun y => by
    show V c main_v23 (((cfg2.win 1).blk t).view.emb y) = V c main_v23 y
    refine congrArg _ (funext fun a => Fin.ext ?_)
    match a with
    | ⟨0, _⟩ => show win2_1.index t (0 : Fin 2) * 512 + 1 * (y 0).val = (y 0).val; omega
    | ⟨1, _⟩ => show win2_1.index t (1 : Fin 2) * 8192 + 1 * (y 1).val = (y 1).val; omega
  have h2 : (iblk2 V c 2 t : (⟨3, ![2, 8192, 100]⟩ : Shape).Idx → EReal) = V c main_arg3 := funext fun y => by
    show V c main_arg3 (((cfg2.win 2).blk t).view.emb y) = V c main_arg3 y
    refine congrArg _ (funext fun a => Fin.ext ?_)
    match a with
    | ⟨0, _⟩ => show win2_2.index t (0 : Fin 3) * 2 + 1 * (y 0).val = (y 0).val; omega
    | ⟨1, _⟩ => show win2_2.index t (1 : Fin 3) * 8192 + 1 * (y 1).val = (y 1).val; omega
    | ⟨2, _⟩ => show win2_2.index t (2 : Fin 3) * 100 + 1 * (y 2).val = (y 2).val; omega
  funext j
  show Net.readout (M := 512) (K := 8192) (C := 100) (iblk2 V c 0 t) (iblk2 V c 1 t) (iblk2 V c 2 t) j
    = Net.readout (M := 512) (K := 8192) (C := 100) (V c main_v22) (V c main_v23) (V c main_arg3) (((cfg2.win 3).blk t).view.emb j)
  have hj : ((cfg2.win 3).blk t).view.emb j = j := funext fun a => Fin.ext (by
    match a with
    | ⟨0, _⟩ => show win2_3.index t (0 : Fin 2) * 512 + 1 * (j 0).val = (j 0).val; omega
    | ⟨1, _⟩ => show win2_3.index t (1 : Fin 2) * 100 + 1 * (j 1).val = (j 1).val; omega)
  rw [hj]
  exact congrFun (congr (congr (congrArg (Net.readout (M := 512) (K := 8192) (C := 100)) h0) h1) h2) j

/-- An index of the result array is in the point's block iff each coordinate is in the block's range on its axis. -/
theorem mem_block (t : Fin cfg2.N) (i : S512x100.Idx) :
    i ∈ ((cfg2.win 3).blk t).view.set ↔ ∀ a : Fin 2, win2_3.index t a * S512x100.size a ≤ (i a).val
      ∧ (i a).val < win2_3.index t a * S512x100.size a + S512x100.size a := by
  show i ∈ ((View.whole main_v24).slice (win2_3.rect t)).set ↔ _
  rw [View.set_slice_whole, Rect.mem_set_unit]
  exact Iff.rfl

/-- The one block is the whole result array. -/
theorem covered (i : S512x100.Idx) :
    ∃ t : Fin cfg2.N, (cfg2.win 3).flush t = true ∧ i ∈ ((cfg2.win 3).blk t).view.set := by
  have hi0 : (i 0).val < 512 := (i 0).isLt
  have hi1 : (i 1).val < 100 := (i 1).isLt
  obtain ⟨e00, e01, e10, e11, e20, e21, e22, e30, e31⟩ := index_facts t2_0
  refine ⟨t2_0, flush2_3 t2_0, ?_⟩
  rw [mem_block]
  intro a
  match a with
  | ⟨0, _⟩ =>
    show win2_3.index t2_0 (0 : Fin 2) * 512 ≤ (i 0).val ∧ (i 0).val < win2_3.index t2_0 (0 : Fin 2) * 512 + 512
    omega
  | ⟨1, _⟩ =>
    show win2_3.index t2_0 (1 : Fin 2) * 100 ≤ (i 1).val ∧ (i 1).val < win2_3.index t2_0 (1 : Fin 2) * 100 + 100
    omega

/-- The result array after the region is the read-out of the arrays the region found. -/
theorem final (c : Dev nD) :
    (dat2 V c).arrAt 3 cfg2.N
      = Net.readout (M := 512) (K := 8192) (C := 100) (V c main_v22) (V c main_v23) (V c main_arg3) :=
  (dat2 V c).arrAt_eq_of_cover 3 _ (fun t _ => flushed_eq V c t) covered

end Cert.KernelIdeal.Readout

end
-- ==== Proof.Encode.lean ====
/-
  The input encoding both programs apply on the host before the first layer, as one function of the [512, 256] input.
  Each entry is clipped to [0, 1] (maximum with 0, then minimum with 1), shifted by 0, divided by 1, scaled by 255,
  rounded to the nearest integer (ties to even) and converted to a 32-bit integer: its level, 0 … 255 on the inputs
  the encoding is meant for. The level's Gray code is the level xor the level shifted right by one place. Bit b of
  the Gray code, b = 0 … 7, is (code >> b) & 1, converted to a float 0 or 1; the eight bits of an entry are laid side
  by side, [512, 256, 8] read as [512, 2048].
  Nothing about these operations is used anywhere: the two programs apply the same chain to the same input, so the
  chain is carried as one function.
-/
import proofs.«125684_j83605833384667_1_alg».proof.Proof.Gen.ReferenceIdeal
import Idealize.ShloMosaic.PureOps.Ideal

noncomputable section

namespace Cert.Encoding

open Cert.ReferenceIdeal Cert.ReferenceIdeal.Gen Idealize.ShloMosaic

/-- The level of each entry: clipped to [0, 1], scaled by 255, rounded half to even, as a 32-bit integer. -/
def level (x : FVec Ideal S512x256 .f32) : IVec S512x256 32 :=
  fptosi 32 (Host.roundeven (F := Ideal) (mulf (Host.divf (F := Ideal) (subf (minimumf (broadcastInDim S512x256 ![] bcast_S_S512x256 (id (constant (F := Ideal) S_ .f32 0x3F800000#32))) (maximumf (broadcastInDim S512x256 ![] bcast_S_S512x256 (id (constant (F := Ideal) S_ .f32 0x00000000#32))) x)) (broadcastInDim S512x256 ![] bcast_S_S512x256 (constant (F := Ideal) S_ .f32 0x00000000#32))) (broadcastInDim S512x256 ![] bcast_S_S512x256 (constant (F := Ideal) S_ .f32 0x3F800000#32))) (broadcastInDim S512x256 ![] bcast_S_S512x256 (constant (F := Ideal) S_ .f32 0x437F0000#32))))

/-- The Gray code of each level: the level xor the level shifted right by one place. -/
def gray (x : FVec Ideal S512x256 .f32) : IVec S512x256 32 :=
  xori (level x) (Host.shrsi (level x) (broadcastInDim S512x256 ![] bcast_S_S512x256 (constantI S_ 32 1#32)))

/-- The eight low bits of each Gray code as floats 0 or 1, side by side: the [512, 2048] array the first layer reads. -/
def encode (x : FVec Ideal S512x256 .f32) : FVec Ideal S512x2048 .f32 :=
  shapeCast _ (sitofp (F := Ideal) .f32 (andi (Host.shrsi (broadcastInDim S512x256x8 ![0, 1, 2] bcast_S512x256x1_S512x256x8_0_1_2 (broadcastInDim S512x256x1 ![0, 1] bcast_S512x256_S512x256x1_0_1 (gray x))) (broadcastInDim S512x256x8 ![0, 1, 2] bcast_S1x1x8_S512x256x8_0_1_2 (broadcastInDim S1x1x8 ![2] bcast_S8_S1x1x8_2 (iotaInDim S8 32 0)))) (broadcastInDim S512x256x8 ![] bcast_S_S512x256x8 (constantI S_ 32 1#32)))) shapeCasts_S512x256x8_S512x2048

end Cert.Encoding

end
-- ==== Proof.Through.lean ====
/-
  The idealized kernel's result as one function of its arguments. Its @main is a stretch of host operations (the input
  encoding) and three regions; each region's arrays at its exit are what its write-backs leave, every other buffer
  as it was. Reading the result array back through the three regions:
    the result      = read-out (first layer's answers) (second layer's answers) (stacked weight)   at the third region,
    second answers  = layer (first layer's answers) (second weight)                                 at the second region,
    first answers   = layer (encoded input) (first weight)                                          at the first region,
  the encoded input is what the host stretch leaves, and each weight array is still the launch memory's when its
  region reads it (no host operation and no earlier region writes an argument).
-/
import proofs.«125684_j83605833384667_1_alg».proof.Proof.Launched
import proofs.«125684_j83605833384667_1_alg».proof.Proof.Layer0
import proofs.«125684_j83605833384667_1_alg».proof.Proof.Layer1
import proofs.«125684_j83605833384667_1_alg».proof.Proof.Readout
import proofs.«125684_j83605833384667_1_alg».proof.Proof.Encode
import Idealize.ShloMosaic.Lib.StableHlo.Run

set_option maxRecDepth 16384

noncomputable section

namespace Cert.KernelIdeal.Through

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The first weight is the launch memory's when the first region is entered. -/
theorem entry_w0 (c : Dev nD) : V5 m ρ c main_arg1 = m ((c : Thread nD τ).loc main_arg1) :=
  (((W8_of_ne m ρ c main_arg1 (by decide)).trans (W7_of_ne m ρ c main_arg1 (by decide))).trans
    ((W6_arr m ρ c 1).trans (((dat0 (V5 m ρ) c).arrAt_in 1 rfl _).trans (A_eq0 (V5 m ρ) c 1)))).symm.trans
    (W8_main_arg1 m ρ c)

/-- The second weight is the launch memory's when the second region is entered. -/
theorem entry_w1 (c : Dev nD) : V6 m ρ c main_arg2 = m ((c : Thread nD τ).loc main_arg2) :=
  ((W8_of_ne m ρ c main_arg2 (by decide)).trans
    ((W7_arr m ρ c 1).trans (((dat1 (V6 m ρ) c).arrAt_in 1 rfl _).trans (A_eq1 (V6 m ρ) c 1)))).symm.trans
    (W8_main_arg2 m ρ c)

/-- The stacked weight is the launch memory's when the third region is entered. -/
theorem entry_wo (c : Dev nD) : V7 m ρ c main_arg3 = m ((c : Thread nD τ).loc main_arg3) :=
  ((W8_arr m ρ c 2).trans (((dat2 (V7 m ρ) c).arrAt_in 2 rfl _).trans (A_eq2 (V7 m ρ) c 2))).symm.trans
    (W8_main_arg3 m ρ c)

/-- What the host stretch leaves in the first region's input array is the encoding of the launch memory's input. -/
theorem entry_encoded (c : Dev nD) :
    V5 m ρ c main_v21 = Cert.Encoding.encode (m ((c : Thread nD τ).loc main_arg0)) := by
  dsimp only [V5, W5, W4, W3, W2, W1, W0, hostOps0, hostOps0_1, hostOps0_2, hostOps0_3, hostOps0_4]
  after_results_simp
  rfl

/-- The first layer's answers, as the second and third regions find them. -/
theorem first_answers (c : Dev nD) :
    V6 m ρ c main_v22 = Cert.Net.layer (M := 512) (K := 2048) (N := 8192)
      (Cert.Encoding.encode (m ((c : Thread nD τ).loc main_arg0))) (m ((c : Thread nD τ).loc main_arg1)) := by
  refine ((W6_arr m ρ c 2).trans (Layer0.final (V5 m ρ) c)).trans ?_
  rw [entry_encoded m ρ c, entry_w0 m ρ c]

/-- The third region finds the first layer's answers where the second left them: it only read them. -/
theorem first_answers_kept (c : Dev nD) : V7 m ρ c main_v22 = V6 m ρ c main_v22 :=
  (W7_arr m ρ c 0).trans (((dat1 (V6 m ρ) c).arrAt_in 0 rfl _).trans (A_eq1 (V6 m ρ) c 0))

/-- The second layer's answers, as the third region finds them. -/
theorem second_answers (c : Dev nD) :
    V7 m ρ c main_v23 = Cert.Net.layer (M := 512) (K := 8192) (N := 8192)
      (V6 m ρ c main_v22) (m ((c : Thread nD τ).loc main_arg2)) := by
  refine ((W7_arr m ρ c 2).trans (Layer1.final (V6 m ρ) c)).trans ?_
  rw [entry_w1 m ρ c]

/-- The result array at the return is the network on the encoded input and the three weight arrays. -/
theorem result (c : Dev nD) :
    V8 m ρ c main_v24 = Cert.Net.net (M := 512) (E := 2048) (H := 8192) (C := 100)
      (Cert.Encoding.encode (m ((c : Thread nD τ).loc main_arg0))) (m ((c : Thread nD τ).loc main_arg1))
      (m ((c : Thread nD τ).loc main_arg2)) (m ((c : Thread nD τ).loc main_arg3)) := by
  refine ((W8_arr m ρ c 3).trans (Readout.final (V7 m ρ) c)).trans ?_
  rw [second_answers m ρ c, first_answers_kept m ρ c, first_answers m ρ c, entry_wo m ρ c]
  rfl

/-- Every weakly fair execution of the idealized kernel terminates, nothing faulting, with the result array at the
    network of its arguments and the arguments unchanged. -/
theorem run : θ_run defs (onTc (τ := τ) (main (F := Ideal))) ⟨m, fun _ => 0, ρ⟩ (fun r => ∀ c : Dev nD,
      r.2.mem ((c.tc : Thread nD τ).loc main_v24) = Cert.Net.net (M := 512) (E := 2048) (H := 8192) (C := 100)
        (Cert.Encoding.encode (m ((c.tc : Thread nD τ).loc main_arg0))) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Launched.run m ρ)

end Cert.KernelIdeal.Through

end
-- ==== Proof.RefValue.lean ====
/-
  What the reference computes, at the extended reals: its run ends with the result at the composed term of its
  operations, and that term is the network of threshold units (two layers and the read-out) on the encoded input —
  each product against a transposed weight, compared against 5 and read as 0 or 1, is a layer; the two products
  against the planes of the stacked weight, added, are the read-out.
-/
import proofs.«125684_j83605833384667_1_alg».proof.Proof.Gen.ReferenceIdeal.Run
import proofs.«125684_j83605833384667_1_alg».proof.Proof.Net
import proofs.«125684_j83605833384667_1_alg».proof.Proof.Encode

noncomputable section

namespace Cert.ReferenceIdeal.RefValue

open Cert.ReferenceIdeal Cert.ReferenceIdeal.Gen Cert.ReferenceIdeal.Value
open Idealize.ShloMosaic Idealize.ShloMosaic.TcCoe Idealize.SL.Sem

/-- The reference's operations after the encoding, on any four arrays, are the network. -/
theorem network_eq (x : FVec Ideal S512x256 .f32) (w0 : FVec Ideal S8192x2048 .f32) (w1 : FVec Ideal S8192x8192 .f32)
    (wo : FVec Ideal S2x8192x100 .f32) :
    addf
      (Host.dotGeneral dot_S512x8192_S8192x100_S512x100_1_0_0_1_n_n none
        (uitofp .f32 (cmpf .oge
          (Host.dotGeneral dot_S512x2048_S2048x8192_S512x8192_1_0_0_1_n_n none (Cert.Encoding.encode x)
            (transpose S2048x8192 [1, 0] w0 transposes_S8192x2048_S2048x8192_1_0))
          (broadcastInDim S512x8192 ![] bcast_S_S512x8192 (constant (F := Ideal) S_ .f32 0x40A00000#32))))
        (shapeCast _ (extractStridedSlice S1x8192x100 ![0, 0, 0] wo slices_S2x8192x100_S1x8192x100_0_0_0) shapeCasts_S1x8192x100_S8192x100))
      (Host.dotGeneral dot_S512x8192_S8192x100_S512x100_1_0_0_1_n_n none
        (uitofp .f32 (cmpf .oge
          (Host.dotGeneral dot_S512x8192_S8192x8192_S512x8192_1_0_0_1_n_n none
            (uitofp .f32 (cmpf .oge
              (Host.dotGeneral dot_S512x2048_S2048x8192_S512x8192_1_0_0_1_n_n none (Cert.Encoding.encode x)
                (transpose S2048x8192 [1, 0] w0 transposes_S8192x2048_S2048x8192_1_0))
              (broadcastInDim S512x8192 ![] bcast_S_S512x8192 (constant (F := Ideal) S_ .f32 0x40A00000#32))))
            (transpose S8192x8192 [1, 0] w1 transposes_S8192x8192_S8192x8192_1_0))
          (broadcastInDim S512x8192 ![] bcast_S_S512x8192 (constant (F := Ideal) S_ .f32 0x40A00000#32))))
        (shapeCast _ (extractStridedSlice S1x8192x100 ![1, 0, 0] wo slices_S2x8192x100_S1x8192x100_1_0_0) shapeCasts_S1x8192x100_S8192x100))
      = Cert.Net.net (M := 512) (E := 2048) (H := 8192) (C := 100) (Cert.Encoding.encode x) w0 w1 wo := by
  rw [Cert.Net.layer_host dot_S512x2048_S2048x8192_S512x8192_1_0_0_1_n_n rfl rfl rfl rfl rfl rfl (Cert.Encoding.encode x) w0,
    Cert.Net.layer_host dot_S512x8192_S8192x8192_S512x8192_1_0_0_1_n_n rfl rfl rfl rfl rfl rfl _ w1,
    Cert.Net.readout_host dot_S512x8192_S8192x100_S512x100_1_0_0_1_n_n rfl rfl rfl rfl rfl rfl]
  rfl

/-- The reference run's result term is the network on the encoded input and the three weight arrays. -/
theorem result_eq (m : (ℓ : Loc nD τ sig) → Buf (Elt Ideal) ℓ) (c : Dev nD) :
    res_main_v38 (F := Ideal) m c
      = Cert.Net.net (M := 512) (E := 2048) (H := 8192) (C := 100)
          (Cert.Encoding.encode (m ((c.tc : Thread nD τ).loc main_arg0))) (m ((c.tc : Thread nD τ).loc main_arg1))
          (m ((c.tc : Thread nD τ).loc main_arg2)) (m ((c.tc : Thread nD τ).loc main_arg3)) := by
  unfold res_main_v38
  exact network_eq _ _ _ _

end Cert.ReferenceIdeal.RefValue

end
-- ==== Proof.lean ====
/-
  A two-layer network of threshold units with a linear read-out, computed in three tiled steps, against the same
  network written with whole-array products.
  Both programs first encode the [512, 256] input on the host by the same chain of operations (clip, scale, round,
  Gray code, eight bits per entry), giving a [512, 2048] array e of zeros and ones. Then
    a0 (r, j) = 1 if the sum over k of e (r, k) · w0 (j, k) reaches 5, else 0          (8192 units),
    a1 (r, j) = 1 if the sum over k of a0 (r, k) · w1 (j, k) reaches 5, else 0         (8192 units),
    out (r, c) = sum over k of a0 (r, k) · wout (0, k, c) + sum over k of a1 (r, k) · wout (1, k, c).
  The tiled program computes a0 in 16 column blocks of 512 units and a1 in 32 column blocks of 256 units, each block
  by a product of the whole input with the transposed block of weight rows, and the read-out in one step; it narrows
  operands to a shorter float format before each product. On the extended reals a change of float format is the
  identity, a block product into the zero accumulator and the host's product are the same sum over k in the same
  order, the comparison is the same comparison, and the comparison bit widened and read signed is the bit read
  unsigned; a unit's answer depends only on its own weight row and its own input row, so the column blocks assemble
  to the whole layer. No law of arithmetic beyond that is used, so the precondition (finite inputs) is never opened.
  The frames of the two kernel programs are the generated ones; the reference's frame is its generated run with the
  result dropped; the idealization rewrote nothing, so there is nothing to preserve.
-/
import proofs.«125684_j83605833384667_1_alg».proof.Defs
import proofs.«125684_j83605833384667_1_alg».proof.Proof.Gen.Kernel
import proofs.«125684_j83605833384667_1_alg».proof.Proof.Gen.Kernel.Skeleton
import proofs.«125684_j83605833384667_1_alg».proof.Proof.Gen.Kernel.Launch
import proofs.«125684_j83605833384667_1_alg».proof.Proof.Gen.Kernel.Points
import proofs.«125684_j83605833384667_1_alg».proof.Proof.Gen.Kernel.Frame
import proofs.«125684_j83605833384667_1_alg».proof.Proof.Gen.KernelIdeal
import proofs.«125684_j83605833384667_1_alg».proof.Proof.Gen.KernelIdeal.Skeleton
import proofs.«125684_j83605833384667_1_alg».proof.Proof.Gen.KernelIdeal.Launch
import proofs.«125684_j83605833384667_1_alg».proof.Proof.Gen.KernelIdeal.Points
import proofs.«125684_j83605833384667_1_alg».proof.Proof.Gen.KernelIdeal.Frame
import proofs.«125684_j83605833384667_1_alg».proof.Proof.Gen.ReferenceIdeal
import proofs.«125684_j83605833384667_1_alg».proof.Proof.Gen.ReferenceIdeal.Run
import proofs.«125684_j83605833384667_1_alg».proof.Proof.Gen.Pre_finite_inputs
import proofs.«125684_j83605833384667_1_alg».proof.Proof.Through
import proofs.«125684_j83605833384667_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at the network of the arguments: the tiled one by reading its result
    back through its three regions, the reference by reading its operations' composed term; the arguments agree. -/
theorem algebraic : Cert.algebraic_KernelIdeal_ReferenceIdeal := by
  intro m ρ m' ρ' _ hagree
  refine ⟨_, Cert.KernelIdeal.Through.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
